-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩
abbrev S256x1024 : Shape := ⟨2, ![256, 1024]⟩
abbrev S_ : Shape := ⟨0, ![]⟩

abbrev nBuf : Space → Nat
  | .hbm => 46
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  shapeCasts_S2048x1024_S2048x1024 : S2048x1024.ShapeCasts S2048x1024
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  bcast_S_S4096x4096 : S_.BroadcastsInDim S4096x4096 (![] : Fin 0 → Fin S4096x4096.rank)
  bcast_S_S4096 : S_.BroadcastsInDim S4096 (![] : Fin 0 → Fin S4096.rank)
  reducesTo_S4096x4096_S_d0_1 : S4096x4096.ReducesTo [0, 1] S_
  h_S_ : 0 < S_.numel
  reducesTo_S4096_S_d0 : S4096.ReducesTo [0] S_
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .f32 = 32 ∨ (Rect.block (s := S4096x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x4096.size a
  hwx0_3 : ∀ i : grid0.Coords, EltTy.bits .f32 = 32 ∨ (Rect.block (s := S4096x4096) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S8192x4096.size a
  hwx0_7 : ∀ i : grid0.Coords, EltTy.bits .f32 = 32 ∨ (Rect.block (s := S8192x4096) S2048x1024.size (cc0_transform_7 i) (hinb0_7 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096x4096 : S_.BroadcastsInDim S4096x4096 (![] : Fin 0 → Fin S4096x4096.rank)
  bcast_S_S4096 : S_.BroadcastsInDim S4096 (![] : Fin 0 → Fin S4096.rank)
  reducesTo_S4096x4096_S_d0_1 : S4096x4096.ReducesTo [0, 1] S_
  h_S_ : 0 < S_.numel
  reducesTo_S4096_S_d0 : S4096.ReducesTo [0] S_
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What each control case of the kernel's body leaves in the output block, as a value.

  The body has two conditionals on the position `k` along the contraction axis of the grid. At `k = 0` it first
  overwrites the output block with zeros; at every `k` it adds the run's matrix product to the block; at the last `k` it then
  adds the bias row. So a first point leaves the accumulating payload over the zero block, a middle point the accumulating
  payload over what the block held, and a last point the closing payload over the accumulating payload over what the
  block held. Each load reads a whole staging buffer, and a load of the output block after a store of the same
  run reads what that store wrote.
-/
import proofs.«142792_j35313221108256_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- A middle point: the run's products added to what the block held. -/
theorem out_B (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x1024 .f32) (harg10 : arg10.IsWhole) (hc0 : ¬cond0_0 i) (hc1 : ¬cond0_1 i) (x0 : Vec F S2048x256 .f32) (x1 : Vec F S1024x256 .f32) (x2 : Vec F S1024x256 .f32) (x3 : Vec F S1024x256 .f32) (x4 : Vec F S1x1024 .f32) (x5 : Vec F S1x1024 .f32) (x6 : Vec F S1x1024 .f32) (xo7 : Vec F S2048x1024 .f32) :
    out0_B_7 c i arg3 harg3 arg4 harg4 arg5 harg5 arg6 harg6 arg7 harg7 arg8 harg8 arg9 harg9 arg10 harg10 hc0 hc1 x0 x1 x2 x3 x4 x5 x6 xo7 = k0_pay2 x1 x2 x3 x0 xo7 := by
  unfold out0_B_7
  rw [View.read_writes_eq_canon _ _ _ (cover0_B_7 c i arg3 harg3 arg4 harg4 arg5 harg5 arg6 harg6 arg7 harg7 arg8 harg8 arg9 harg9 arg10 harg10 hc0 hc1 x0 x1 x2 x3 x4 x5 x6 xo7)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S1024x256) hz, View.ld_unit_zero (S := S2048x256) hz, View.ld_unit_zero (S := S2048x1024) hz, View.ld_unit_zero (S := S1x1024) hz]

/-- A first point: the run's products added to the zero block it has just stored. -/
theorem out_A (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x1024 .f32) (harg10 : arg10.IsWhole) (hc0 : cond0_0 i) (hc1 : ¬cond0_1 i) (x0 : Vec F S2048x256 .f32) (x1 : Vec F S1024x256 .f32) (x2 : Vec F S1024x256 .f32) (x3 : Vec F S1024x256 .f32) (x4 : Vec F S1x1024 .f32) (x5 : Vec F S1x1024 .f32) (x6 : Vec F S1x1024 .f32) :
    out0_A_7 c i arg3 harg3 arg4 harg4 arg5 harg5 arg6 harg6 arg7 harg7 arg8 harg8 arg9 harg9 arg10 harg10 hc0 hc1 x0 x1 x2 x3 x4 x5 x6 = k0_pay2 x1 x2 x3 x0 k0_pay1 := by
  unfold out0_A_7
  rw [View.read_writes_eq_canon _ _ _ (cover0_A_7 c i arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S2048x1024) hz]
  simp only [View.readAt_eq_ld, harg3.read_unread, harg4.read_unread, harg5.read_unread, harg6.read_unread, harg7.read_unread, harg8.read_unread, harg9.read_unread, harg10.read_unread, View.ld_unit_zero (S := S1024x256) hz, View.ld_unit_zero (S := S2048x256) hz, View.ld_unit_zero (S := S2048x1024) hz, View.ld_unit_zero (S := S1x1024) hz, View.readCov_unit_zero (S := S2048x1024) _ hz]

/-- A last point: the bias row added to the run's products added to what the block held. -/
theorem out_C (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x1024 .f32) (harg10 : arg10.IsWhole) (hc0 : ¬cond0_0 i) (hc1 : cond0_1 i) (x0 : Vec F S2048x256 .f32) (x1 : Vec F S1024x256 .f32) (x2 : Vec F S1024x256 .f32) (x3 : Vec F S1024x256 .f32) (x4 : Vec F S1x1024 .f32) (x5 : Vec F S1x1024 .f32) (x6 : Vec F S1x1024 .f32) (xo7 : Vec F S2048x1024 .f32) :
    out0_C_7 c i arg3 harg3 arg4 harg4 arg5 harg5 arg6 harg6 arg7 harg7 arg8 harg8 arg9 harg9 arg10 harg10 hc0 hc1 x0 x1 x2 x3 x4 x5 x6 xo7 = k0_pay3 x4 x5 x6 (k0_pay2 x1 x2 x3 x0 xo7) := by
  unfold out0_C_7
  rw [View.read_writes_eq_canon _ _ _ (cover0_C_7 c i arg3 harg3 arg4 harg4 arg5 harg5 arg6 harg6 arg7 harg7 arg8 harg8 arg9 harg9 arg10 harg10 hc0 hc1 x0 x1 x2 x3 x4 x5 x6 xo7)]
  unfold kernelRun0_C
  dsimp only
  sl_unfold_words
  rw [View.canon_cons_unit_zero (S := S2048x1024) hz]
  simp only [View.readAt_eq_ld, harg3.read_unread, harg4.read_unread, harg5.read_unread, harg6.read_unread, harg7.read_unread, harg8.read_unread, harg9.read_unread, harg10.read_unread, View.ld_unit_zero (S := S1024x256) hz, View.ld_unit_zero (S := S2048x256) hz, View.ld_unit_zero (S := S2048x1024) hz, View.ld_unit_zero (S := S1x1024) hz, View.readCov_unit_zero (S := S2048x1024) _ hz]

end Cert.KernelIdeal.Pieces

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«142792_j35313221108256_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.Payload.lean ====
/-
  What one run of the kernel's body computes, entry by entry, on the extended reals.

  The body's main store writes, at row `p` and column `q` of the output block, the entry the block already held plus the
  256 products of row `p` of the `x` block with row `q` of the sampled weight block
  `μ + exp σ · ε`: the narrowing of both operands to a shorter float format changes nothing on the extended reals, the
  transposed weight block read at `(j, q)` is the block at `(q, j)`, and the matrix product into a zero accumulator is the
  plain sum over the shared axis. The reset store writes zeros. The last store of a column tile adds, to every row, the
  sampled bias `μ_b + exp σ_b · ε_b` of that column.
-/
import proofs.«142792_j35313221108256_1_alg».proof.Proof.Gen.KernelIdeal.Skeleton
import proofs.«142792_j35313221108256_1_alg».proof.Proof.LibPlainDotAny
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The reset store writes zero everywhere. -/
theorem reset_apply (y : S2048x1024.Idx) : k0_pay1 (F := Ideal) y = 0 :=
  Ideal.ofBits_zero_f32

/-- The accumulating store at `(p, q)`: what the block held there plus the run's 256 products. -/
theorem accumulate_apply (wm ws we : Vec Ideal S1024x256 .f32) (xb : Vec Ideal S2048x256 .f32) (acc : Vec Ideal S2048x1024 .f32)
    (p : Fin 2048) (q : Fin 1024) :
    k0_pay2 (F := Ideal) wm ws we xb acc (ix2 p q)
      = acc (ix2 p q) + ∑ j : Fin 256, xb (ix2 p j) * (wm (ix2 q j) + Ideal.exp (ws (ix2 q j)) * we (ix2 q j)) := by
  unfold k0_pay2
  refine congrArg₂ (· + ·) (congrFun (shapeCast_self acc _) (ix2 p q)) ?_
  refine (PlainDot.matmul_zero_apply_any 2048 256 1024 none _ _ (ix2 p q)).trans ?_
  refine Finset.sum_congr rfl fun j _ => congrArg₂ (· * ·) rfl ?_
  exact transpose_ix2_apply _ _ j q

/-- The closing store at `(p, q)`: what the block held there plus the sampled bias of column `q`. -/
theorem addBias_apply (bm bs be : Vec Ideal S1x1024 .f32) (acc : Vec Ideal S2048x1024 .f32) (p : Fin 2048) (q : Fin 1024) :
    k0_pay3 (F := Ideal) bm bs be acc (ix2 p q)
      = acc (ix2 p q) + (bm (ix2 (0 : Fin 1) q) + Ideal.exp (bs (ix2 (0 : Fin 1) q)) * be (ix2 (0 : Fin 1) q)) := by
  unfold k0_pay3
  refine congrArg₂ (· + ·) (congrFun (shapeCast_self acc _) (ix2 p q)) ?_
  refine (broadcastTo_1b_ab_apply _ _ p q).trans ?_
  refine congrArg₂ (· + ·) (congrFun (shapeCast_self bm _) _) ?_
  refine congrArg₂ (· * ·) ?_ (congrFun (shapeCast_self be _) _)
  exact congrArg Ideal.exp (congrFun (shapeCast_self bs _) _)

end Cert.KernelIdeal.Payload

end
-- ==== Proof.Blocks.lean ====
/-
  Which entries of the arrays a grid point's blocks hold.

  The grid has 4 × 4 × 16 points; point `t` has row-tile `t / 64`, column-tile `(t / 16) % 4` and position `t % 16` along
  the contraction axis. At point `t` the `x` block is rows `2048 · (t / 64) + p` and columns `256 · (t % 16) + j` of `x`; each of
  the three weight blocks is rows `1024 · ((t / 16) % 4) + q` and columns `256 · (t % 16) + j` of its array; each of the three
  bias blocks is columns `1024 · ((t / 16) % 4) + q` of its one-row array, which the program made from the bias vector by
  adding a leading unit axis; the output block is rows `2048 · (t / 64) + p` and columns `1024 · ((t / 16) % 4) + q` of the
  result. The block indices are decided once over the 256 points.
-/
import proofs.«142792_j35313221108256_1_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The block indices, over the grid -/

theorem idx_x : ∀ t : Fin cfg0.N, win0_0.index t (0 : Fin 2) = t.val / 64 ∧ win0_0.index t (1 : Fin 2) = t.val % 16 :=
  (by decide +kernel : ∀ t : Fin grid0.N, win0_0.index t (0 : Fin 2) = t.val / 64 ∧ win0_0.index t (1 : Fin 2) = t.val % 16)
theorem idx_wm : ∀ t : Fin cfg0.N, win0_1.index t (0 : Fin 2) = (t.val / 16) % 4 ∧ win0_1.index t (1 : Fin 2) = t.val % 16 :=
  (by decide +kernel : ∀ t : Fin grid0.N, win0_1.index t (0 : Fin 2) = (t.val / 16) % 4 ∧ win0_1.index t (1 : Fin 2) = t.val % 16)
theorem idx_ws : ∀ t : Fin cfg0.N, win0_2.index t (0 : Fin 2) = (t.val / 16) % 4 ∧ win0_2.index t (1 : Fin 2) = t.val % 16 :=
  (by decide +kernel : ∀ t : Fin grid0.N, win0_2.index t (0 : Fin 2) = (t.val / 16) % 4 ∧ win0_2.index t (1 : Fin 2) = t.val % 16)
theorem idx_we : ∀ t : Fin cfg0.N, win0_3.index t (0 : Fin 2) = (t.val / 16) % 4 ∧ win0_3.index t (1 : Fin 2) = t.val % 16 :=
  (by decide +kernel : ∀ t : Fin grid0.N, win0_3.index t (0 : Fin 2) = (t.val / 16) % 4 ∧ win0_3.index t (1 : Fin 2) = t.val % 16)
theorem idx_bm : ∀ t : Fin cfg0.N, win0_4.index t (0 : Fin 2) = 0 ∧ win0_4.index t (1 : Fin 2) = (t.val / 16) % 4 :=
  (by decide +kernel : ∀ t : Fin grid0.N, win0_4.index t (0 : Fin 2) = 0 ∧ win0_4.index t (1 : Fin 2) = (t.val / 16) % 4)
theorem idx_bs : ∀ t : Fin cfg0.N, win0_5.index t (0 : Fin 2) = 0 ∧ win0_5.index t (1 : Fin 2) = (t.val / 16) % 4 :=
  (by decide +kernel : ∀ t : Fin grid0.N, win0_5.index t (0 : Fin 2) = 0 ∧ win0_5.index t (1 : Fin 2) = (t.val / 16) % 4)
theorem idx_be : ∀ t : Fin cfg0.N, win0_6.index t (0 : Fin 2) = 0 ∧ win0_6.index t (1 : Fin 2) = (t.val / 16) % 4 :=
  (by decide +kernel : ∀ t : Fin grid0.N, win0_6.index t (0 : Fin 2) = 0 ∧ win0_6.index t (1 : Fin 2) = (t.val / 16) % 4)
theorem idx_out : ∀ t : Fin cfg0.N, win0_7.index t (0 : Fin 2) = t.val / 64 ∧ win0_7.index t (1 : Fin 2) = (t.val / 16) % 4 :=
  (by decide +kernel : ∀ t : Fin grid0.N, win0_7.index t (0 : Fin 2) = t.val / 64 ∧ win0_7.index t (1 : Fin 2) = (t.val / 16) % 4)

/-! ## The `x` block -/

/-- The `x` block of point `t`, -/
abbrev xblk (c : Dev nD) (t : Fin cfg0.N) : Vec F S2048x256 .f32 := iblk m c 0 t
/-- and the array it is cut from. -/
abbrev xarr (c : Dev nD) : Vec F S8192x4096 .f32 := V m c main_arg0

theorem xarr_eq (c : Dev nD) : xarr m c = m ((c : Thread nD τ).loc main_arg0) := V_main_arg0 m c

/-- Entry `(p, j)` of the `x` block is entry `(2048 · (t / 64) + p, 256 · (t % 16) + j)` of `x`. -/
theorem xblk_apply (c : Dev nD) (t : Fin cfg0.N) (p : Fin 2048) (j : Fin 256) (r : Fin 8192) (i : Fin 4096)
    (hr : r.val = 2048 * (t.val / 64) + p.val) (hi : i.val = 256 * (t.val % 16) + j.val) :
    xblk m c t (ix2 p j) = xarr m c (ix2 r i) := by
  unfold xblk xarr iblk
  rw [View.read_apply]
  show V m c main_arg0 _ = V m c main_arg0 _
  congr 1
  funext a
  apply Fin.ext
  match a with
  | ⟨0, _⟩ => show win0_0.index t 0 * 2048 + 1 * p.val = r.val; rw [(idx_x t).1, hr]; omega
  | ⟨1, _⟩ => show win0_0.index t 1 * 256 + 1 * j.val = i.val; rw [(idx_x t).2, hi]; omega

/-! ## The three weight blocks -/

/-- The block of the weight means at point `t`, -/
abbrev wmblk (c : Dev nD) (t : Fin cfg0.N) : Vec F S1024x256 .f32 := iblk m c 1 t
/-- and the array it is cut from. -/
abbrev wmarr (c : Dev nD) : Vec F S4096x4096 .f32 := V m c main_arg1

theorem wmarr_eq (c : Dev nD) : wmarr m c = m ((c : Thread nD τ).loc main_arg1) := V_main_arg1 m c

/-- Entry `(q, j)` of the block is entry `(1024 · ((t / 16) % 4) + q, 256 · (t % 16) + j)` of the array. -/
theorem wmblk_apply (c : Dev nD) (t : Fin cfg0.N) (q : Fin 1024) (j : Fin 256) (o : Fin 4096) (i : Fin 4096)
    (ho : o.val = 1024 * ((t.val / 16) % 4) + q.val) (hi : i.val = 256 * (t.val % 16) + j.val) :
    wmblk m c t (ix2 q j) = wmarr m c (ix2 o i) := by
  unfold wmblk wmarr iblk
  rw [View.read_apply]
  show V m c main_arg1 _ = V m c main_arg1 _
  congr 1
  funext a
  apply Fin.ext
  match a with
  | ⟨0, _⟩ => show win0_1.index t 0 * 1024 + 1 * q.val = o.val; rw [(idx_wm t).1, ho]; omega
  | ⟨1, _⟩ => show win0_1.index t 1 * 256 + 1 * j.val = i.val; rw [(idx_wm t).2, hi]; omega

/-- The block of the weight log-deviations at point `t`, -/
abbrev wsblk (c : Dev nD) (t : Fin cfg0.N) : Vec F S1024x256 .f32 := iblk m c 2 t
/-- and the array it is cut from. -/
abbrev wsarr (c : Dev nD) : Vec F S4096x4096 .f32 := V m c main_arg2

theorem wsarr_eq (c : Dev nD) : wsarr m c = m ((c : Thread nD τ).loc main_arg2) := V_main_arg2 m c

/-- Entry `(q, j)` of the block is entry `(1024 · ((t / 16) % 4) + q, 256 · (t % 16) + j)` of the array. -/
theorem wsblk_apply (c : Dev nD) (t : Fin cfg0.N) (q : Fin 1024) (j : Fin 256) (o : Fin 4096) (i : Fin 4096)
    (ho : o.val = 1024 * ((t.val / 16) % 4) + q.val) (hi : i.val = 256 * (t.val % 16) + j.val) :
    wsblk m c t (ix2 q j) = wsarr m c (ix2 o i) := by
  unfold wsblk wsarr iblk
  rw [View.read_apply]
  show V m c main_arg2 _ = V m c main_arg2 _
  congr 1
  funext a
  apply Fin.ext
  match a with
  | ⟨0, _⟩ => show win0_2.index t 0 * 1024 + 1 * q.val = o.val; rw [(idx_ws t).1, ho]; omega
  | ⟨1, _⟩ => show win0_2.index t 1 * 256 + 1 * j.val = i.val; rw [(idx_ws t).2, hi]; omega

/-- The block of the weight noise at point `t`, -/
abbrev weblk (c : Dev nD) (t : Fin cfg0.N) : Vec F S1024x256 .f32 := iblk m c 3 t
/-- and the array it is cut from. -/
abbrev wearr (c : Dev nD) : Vec F S4096x4096 .f32 := V m c main_arg5

theorem wearr_eq (c : Dev nD) : wearr m c = m ((c : Thread nD τ).loc main_arg5) := V_main_arg5 m c

/-- Entry `(q, j)` of the block is entry `(1024 · ((t / 16) % 4) + q, 256 · (t % 16) + j)` of the array. -/
theorem weblk_apply (c : Dev nD) (t : Fin cfg0.N) (q : Fin 1024) (j : Fin 256) (o : Fin 4096) (i : Fin 4096)
    (ho : o.val = 1024 * ((t.val / 16) % 4) + q.val) (hi : i.val = 256 * (t.val % 16) + j.val) :
    weblk m c t (ix2 q j) = wearr m c (ix2 o i) := by
  unfold weblk wearr iblk
  rw [View.read_apply]
  show V m c main_arg5 _ = V m c main_arg5 _
  congr 1
  funext a
  apply Fin.ext
  match a with
  | ⟨0, _⟩ => show win0_3.index t 0 * 1024 + 1 * q.val = o.val; rw [(idx_we t).1, ho]; omega
  | ⟨1, _⟩ => show win0_3.index t 1 * 256 + 1 * j.val = i.val; rw [(idx_we t).2, hi]; omega

/-! ## The three bias blocks -/

/-- The block of the bias means at point `t`, -/
abbrev bmblk (c : Dev nD) (t : Fin cfg0.N) : Vec F S1x1024 .f32 := iblk m c 4 t
/-- and the one-row array it is cut from, -/
abbrev bmarr (c : Dev nD) : Vec F S1x4096 .f32 := V m c main_v0

/-- which is the bias vector with a leading unit axis. -/
theorem bmarr_eq (c : Dev nD) :
    bmarr m c = shapeCast S1x4096 (m ((c : Thread nD τ).loc main_arg3)) shapeCasts_S4096_S1x4096 := by
  show StableHlo.after hostOps0 (fun b => m (c, b)) (Proc.devRef .tc main_v0) = _
  after_results
  rfl

/-- Entry `(0, q)` of the block is entry `(0, 1024 · ((t / 16) % 4) + q)` of the one-row array. -/
theorem bmblk_apply (c : Dev nD) (t : Fin cfg0.N) (q : Fin 1024) (o : Fin 4096)
    (ho : o.val = 1024 * ((t.val / 16) % 4) + q.val) :
    bmblk m c t (ix2 (0 : Fin 1) q) = bmarr m c (ix2 (0 : Fin 1) o) := by
  unfold bmblk bmarr iblk
  rw [View.read_apply]
  show V m c main_v0 _ = V m c main_v0 _
  congr 1
  funext a
  apply Fin.ext
  match a with
  | ⟨0, _⟩ => show win0_4.index t 0 * 1 + 1 * 0 = 0; rw [(idx_bm t).1]
  | ⟨1, _⟩ => show win0_4.index t 1 * 1024 + 1 * q.val = o.val; rw [(idx_bm t).2, ho]; omega

/-- The block of the bias log-deviations at point `t`, -/
abbrev bsblk (c : Dev nD) (t : Fin cfg0.N) : Vec F S1x1024 .f32 := iblk m c 5 t
/-- and the one-row array it is cut from, -/
abbrev bsarr (c : Dev nD) : Vec F S1x4096 .f32 := V m c main_v1

/-- which is the bias vector with a leading unit axis. -/
theorem bsarr_eq (c : Dev nD) :
    bsarr m c = shapeCast S1x4096 (m ((c : Thread nD τ).loc main_arg4)) shapeCasts_S4096_S1x4096 := by
  show StableHlo.after hostOps0 (fun b => m (c, b)) (Proc.devRef .tc main_v1) = _
  after_results
  rfl

/-- Entry `(0, q)` of the block is entry `(0, 1024 · ((t / 16) % 4) + q)` of the one-row array. -/
theorem bsblk_apply (c : Dev nD) (t : Fin cfg0.N) (q : Fin 1024) (o : Fin 4096)
    (ho : o.val = 1024 * ((t.val / 16) % 4) + q.val) :
    bsblk m c t (ix2 (0 : Fin 1) q) = bsarr m c (ix2 (0 : Fin 1) o) := by
  unfold bsblk bsarr iblk
  rw [View.read_apply]
  show V m c main_v1 _ = V m c main_v1 _
  congr 1
  funext a
  apply Fin.ext
  match a with
  | ⟨0, _⟩ => show win0_5.index t 0 * 1 + 1 * 0 = 0; rw [(idx_bs t).1]
  | ⟨1, _⟩ => show win0_5.index t 1 * 1024 + 1 * q.val = o.val; rw [(idx_bs t).2, ho]; omega

/-- The block of the bias noise at point `t`, -/
abbrev beblk (c : Dev nD) (t : Fin cfg0.N) : Vec F S1x1024 .f32 := iblk m c 6 t
/-- and the one-row array it is cut from, -/
abbrev bearr (c : Dev nD) : Vec F S1x4096 .f32 := V m c main_v2

/-- which is the bias vector with a leading unit axis. -/
theorem bearr_eq (c : Dev nD) :
    bearr m c = shapeCast S1x4096 (m ((c : Thread nD τ).loc main_arg6)) shapeCasts_S4096_S1x4096 := by
  show StableHlo.after hostOps0 (fun b => m (c, b)) (Proc.devRef .tc main_v2) = _
  after_results
  rfl

/-- Entry `(0, q)` of the block is entry `(0, 1024 · ((t / 16) % 4) + q)` of the one-row array. -/
theorem beblk_apply (c : Dev nD) (t : Fin cfg0.N) (q : Fin 1024) (o : Fin 4096)
    (ho : o.val = 1024 * ((t.val / 16) % 4) + q.val) :
    beblk m c t (ix2 (0 : Fin 1) q) = bearr m c (ix2 (0 : Fin 1) o) := by
  unfold beblk bearr iblk
  rw [View.read_apply]
  show V m c main_v2 _ = V m c main_v2 _
  congr 1
  funext a
  apply Fin.ext
  match a with
  | ⟨0, _⟩ => show win0_6.index t 0 * 1 + 1 * 0 = 0; rw [(idx_be t).1]
  | ⟨1, _⟩ => show win0_6.index t 1 * 1024 + 1 * q.val = o.val; rw [(idx_be t).2, ho]; omega

end Cert.KernelIdeal.Blocks

end
-- ==== Proof.Spec.lean ====
/-
  The function both programs compute, on the extended reals.

  A linear layer whose weight and bias are sampled by reparameterization: entry `(o, i)` of the weight is
  `μ(o, i) + exp(σ(o, i)) · ε(o, i)`, entry `o` of the bias is `μ_b(o) + exp(σ_b(o)) · ε_b(o)`, and entry `(r, o)` of the
  result is `∑ i, x(r, i) · weight(o, i) + bias(o)`.

  The kernel reaches that sum sixteen runs of 256 consecutive `i` at a time, so the partial sums are stated here over
  initial segments of the natural numbers: `dotUpTo r o n` is the sum of the first `n` products of row `r` of `x` with row
  `o` of the weight (a product whose index lies outside the arrays counts as zero, so that the segments need no bounds).
  Extending a segment by one run adds that run's 256 products (`dotUpTo_run`), and the segment of length 4096 is the
  whole contraction (`dotUpTo_full`). Only commutativity and associativity of `+` on the extended reals are used: no
  entry needs to be finite.
-/
import Idealize.ShloMosaic.Lib.ValueIdx
import Idealize.ShloMosaic.PureOps.Ideal
import Mathlib.Algebra.BigOperators.Fin

noncomputable section

open scoped BigOperators

namespace Cert.SampledLinear

open Idealize.ShloMosaic Idealize.ShloMosaic.ValueIdx

/-- A matrix of extended reals. -/
abbrev Mat (r c : Nat) : Type := FVec Ideal ⟨2, ![r, c]⟩ .f32
/-- A vector of extended reals. -/
abbrev Row (n : Nat) : Type := FVec Ideal ⟨1, ![n]⟩ .f32

variable (x : Mat 8192 4096) (wmu wsig eps : Mat 4096 4096) (bmu bsig epsb : Row 4096)

/-- Entry `(o, i)` of the sampled weight. -/
def weight (o i : Fin 4096) : EReal := wmu (ix2 o i) + Ideal.exp (wsig (ix2 o i)) * eps (ix2 o i)

/-- Entry `o` of the sampled bias. -/
def bias (o : Fin 4096) : EReal := bmu (ix1 o) + Ideal.exp (bsig (ix1 o)) * epsb (ix1 o)

/-- THE RESULT: `x · weightᵀ + bias`, entry by entry. -/
def out : Mat 8192 4096 := fun j => (∑ i : Fin 4096, x (ix2 (j 0) i) * weight wmu wsig eps (j 1) i) + bias bmu bsig epsb (j 1)

/-- The `i`-th product of row `r` of `x` with row `o` of the weight; zero when an index lies outside the arrays. -/
def term (r o i : ℕ) : EReal :=
  if h : r < 8192 ∧ o < 4096 ∧ i < 4096 then x (ix2 ⟨r, h.1⟩ ⟨i, h.2.2⟩) * weight wmu wsig eps ⟨o, h.2.1⟩ ⟨i, h.2.2⟩ else 0

theorem term_eq {r o i : ℕ} (hr : r < 8192) (ho : o < 4096) (hi : i < 4096) :
    term x wmu wsig eps r o i = x (ix2 ⟨r, hr⟩ ⟨i, hi⟩) * weight wmu wsig eps ⟨o, ho⟩ ⟨i, hi⟩ :=
  dif_pos ⟨hr, ho, hi⟩

/-- The sum of the first `n` products of row `r` of `x` with row `o` of the weight. -/
def dotUpTo (r o n : ℕ) : EReal := ∑ i ∈ Finset.range n, term x wmu wsig eps r o i

/-- The bias entry at a natural-number position; zero outside the vector. -/
def biasAt (o : ℕ) : EReal := if h : o < 4096 then bias bmu bsig epsb ⟨o, h⟩ else 0

theorem biasAt_eq {o : ℕ} (ho : o < 4096) : biasAt bmu bsig epsb o = bias bmu bsig epsb ⟨o, ho⟩ := dif_pos ho

/-- Extending a segment that ends at a multiple of 256 by the next run of 256 products. -/
theorem dotUpTo_run (r o k : ℕ) :
    dotUpTo x wmu wsig eps r o (256 * (k + 1))
      = dotUpTo x wmu wsig eps r o (256 * k) + ∑ j : Fin 256, term x wmu wsig eps r o (256 * k + j.val) := by
  unfold dotUpTo
  rw [show 256 * (k + 1) = 256 * k + 256 from by omega, Finset.sum_range_add,
    Finset.sum_range (fun j => term x wmu wsig eps r o (256 * k + j))]

/-- The first run alone. -/
theorem dotUpTo_first (r o : ℕ) :
    dotUpTo x wmu wsig eps r o 256 = ∑ j : Fin 256, term x wmu wsig eps r o (256 * 0 + j.val) := by
  have h := dotUpTo_run x wmu wsig eps r o 0
  rw [show 256 * (0 + 1) = 256 from rfl, show 256 * 0 = 0 from rfl] at h
  rw [h]
  unfold dotUpTo
  rw [Finset.range_zero, Finset.sum_empty, zero_add]

/-- The segment of length 4096 is the whole contraction. -/
theorem dotUpTo_full {r o : ℕ} (hr : r < 8192) (ho : o < 4096) :
    dotUpTo x wmu wsig eps r o 4096 = ∑ i : Fin 4096, x (ix2 ⟨r, hr⟩ i) * weight wmu wsig eps ⟨o, ho⟩ i := by
  unfold dotUpTo
  rw [Finset.sum_range]
  exact Finset.sum_congr rfl fun i _ => term_eq x wmu wsig eps hr ho i.isLt

end Cert.SampledLinear

end
-- ==== Proof.Accum.lean ====
/-
  The output block after each grid point is a partial sum of the contraction.

  Along the contraction axis the grid visits, for one row-tile and one column-tile, the positions `k = 0, …, 15` in
  order, and the output block stays in its staging buffer between them. After the point at position `k` entry `(p, q)`
  of the block is the sum of the first `256 · (k + 1)` products of row `2048 · (t / 64) + p` of `x` with row
  `1024 · ((t / 16) % 4) + q` of the sampled weight; after position 15 the bias entry of that column has been added too.
  The proof is an induction on the point: a first point starts from the zero block, every other point extends the sum
  the point before left by its own run of 256 products.
-/
import proofs.«142792_j35313221108256_1_alg».proof.Proof.Pieces
import proofs.«142792_j35313221108256_1_alg».proof.Proof.Payload
import proofs.«142792_j35313221108256_1_alg».proof.Proof.Blocks
import proofs.«142792_j35313221108256_1_alg».proof.Proof.Spec

noncomputable section

open scoped BigOperators

namespace Cert.KernelIdeal.Accum

open Cert.KernelIdeal Cert.KernelIdeal.Gen Idealize.ShloMosaic Idealize.ShloMosaic.TcCoe Idealize.SL.Sem Idealize.ShloMosaic.ValueIdx
open Cert.SampledLinear Cert.KernelIdeal.Blocks

variable (m : (ℓ : Loc nD τ sig) → Buf (Elt Ideal) ℓ)

/-- The seven argument arrays, as matrices and vectors of extended reals. -/
abbrev X (c : Dev nD) : Mat 8192 4096 := m ((c : Thread nD τ).loc main_arg0)
abbrev Wm (c : Dev nD) : Mat 4096 4096 := m ((c : Thread nD τ).loc main_arg1)
abbrev Ws (c : Dev nD) : Mat 4096 4096 := m ((c : Thread nD τ).loc main_arg2)
abbrev We (c : Dev nD) : Mat 4096 4096 := m ((c : Thread nD τ).loc main_arg5)
abbrev Bm (c : Dev nD) : Row 4096 := m ((c : Thread nD τ).loc main_arg3)
abbrev Bs (c : Dev nD) : Row 4096 := m ((c : Thread nD τ).loc main_arg4)
abbrev Be (c : Dev nD) : Row 4096 := m ((c : Thread nD τ).loc main_arg6)

theorem N256 : cfg0.N = 256 := N_0

/-- The 256 products a point's blocks give at `(p, q)` are the products of the whole arrays at the point's run. -/
theorem run_terms (c : Dev nD) (t : Fin cfg0.N) (p : Fin 2048) (q : Fin 1024) :
    ∑ j : Fin 256, xblk m c t (ix2 p j) * (wmblk m c t (ix2 q j) + Ideal.exp (wsblk m c t (ix2 q j)) * weblk m c t (ix2 q j))
      = ∑ j : Fin 256, term (X m c) (Wm m c) (Ws m c) (We m c) (2048 * (t.val / 64) + p.val) (1024 * ((t.val / 16) % 4) + q.val) (256 * (t.val % 16) + j.val) := by
  have ht : t.val < 256 := lt_of_lt_of_eq t.isLt N256
  have hp := p.isLt
  have hq := q.isLt
  refine Finset.sum_congr rfl fun j _ => ?_
  have hj := j.isLt
  have hr : 2048 * (t.val / 64) + p.val < 8192 := by omega
  have ho : 1024 * ((t.val / 16) % 4) + q.val < 4096 := by omega
  have hi : 256 * (t.val % 16) + j.val < 4096 := by omega
  rw [term_eq _ _ _ _ hr ho hi, xblk_apply m c t p j ⟨_, hr⟩ ⟨_, hi⟩ rfl rfl,
    wmblk_apply m c t q j ⟨_, ho⟩ ⟨_, hi⟩ rfl rfl, wsblk_apply m c t q j ⟨_, ho⟩ ⟨_, hi⟩ rfl rfl,
    weblk_apply m c t q j ⟨_, ho⟩ ⟨_, hi⟩ rfl rfl, xarr_eq, wmarr_eq, wsarr_eq, wearr_eq]
  rfl

/-- The bias a last point's blocks give at column `q` is the bias entry of the point's column. -/
theorem bias_term (c : Dev nD) (t : Fin cfg0.N) (q : Fin 1024) :
    bmblk m c t (ix2 (0 : Fin 1) q) + Ideal.exp (bsblk m c t (ix2 (0 : Fin 1) q)) * beblk m c t (ix2 (0 : Fin 1) q)
      = biasAt (Bm m c) (Bs m c) (Be m c) (1024 * ((t.val / 16) % 4) + q.val) := by
  have ht : t.val < 256 := lt_of_lt_of_eq t.isLt N256
  have hq := q.isLt
  have ho : 1024 * ((t.val / 16) % 4) + q.val < 4096 := by omega
  rw [biasAt_eq _ _ _ ho, bmblk_apply m c t q ⟨_, ho⟩ rfl, bsblk_apply m c t q ⟨_, ho⟩ rfl, beblk_apply m c t q ⟨_, ho⟩ rfl,
    bmarr_eq, bsarr_eq, bearr_eq, shapeCast_a_1a_apply, shapeCast_a_1a_apply, shapeCast_a_1a_apply]
  rfl

/-- What entry `(p, q)` of the output block holds after point `n`. -/
def partialAt (c : Dev nD) (n p q : ℕ) : EReal :=
  dotUpTo (X m c) (Wm m c) (Ws m c) (We m c) (2048 * (n / 64) + p) (1024 * ((n / 16) % 4) + q) (256 * (n % 16 + 1))
    + if n % 16 = 15 then biasAt (Bm m c) (Bs m c) (Be m c) (1024 * ((n / 16) % 4) + q) else 0

/-- The point before a point that is not first is on the same tiles, one position earlier, and has added no bias. -/
theorem partialAt_pred (c : Dev nD) (n p q : ℕ) (h0 : ¬n % 16 = 0) :
    partialAt m c (n - 1) p q
      = dotUpTo (X m c) (Wm m c) (Ws m c) (We m c) (2048 * (n / 64) + p) (1024 * ((n / 16) % 4) + q) (256 * (n % 16)) := by
  unfold partialAt
  have e1 : (n - 1) / 64 = n / 64 := by omega
  have e2 : (n - 1) / 16 % 4 = n / 16 % 4 := by omega
  have e3 : (n - 1) % 16 + 1 = n % 16 := by omega
  have e4 : ¬(n - 1) % 16 = 15 := by omega
  rw [e1, e2, e3, if_neg e4, add_zero]

/-- A first point: the first run of products. -/
theorem first_point (c : Dev nD) (t : Fin cfg0.N) (h0 : t.val % 16 = 0) (h1 : ¬t.val % 16 = 15) (p : Fin 2048) (q : Fin 1024) :
    outsAt0 m c t.val t.isLt (ix2 p q) = partialAt m c t.val p.val q.val := by
  rw [outsAt0_A m c t h0 h1]
  refine (congrFun (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p q)).trans ?_
  refine (Payload.accumulate_apply (wmblk m c t) (wsblk m c t) (weblk m c t) (xblk m c t) (k0_pay1 (F := Ideal)) p q).trans ?_
  rw [Payload.reset_apply, zero_add, run_terms]
  unfold partialAt
  rw [if_neg h1, add_zero, h0]
  exact (dotUpTo_first (X m c) (Wm m c) (Ws m c) (We m c) _ _).symm

/-- A middle point: the sum the point before left, extended by this point's run. -/
theorem middle_point (c : Dev nD) (t : Fin cfg0.N) (h0 : ¬t.val % 16 = 0) (h1 : ¬t.val % 16 = 15) (p : Fin 2048) (q : Fin 1024)
    (ih : ∀ h, outsAt0 m c (t.val - 1) h (ix2 p q) = partialAt m c (t.val - 1) p.val q.val) :
    outsAt0 m c t.val t.isLt (ix2 p q) = partialAt m c t.val p.val q.val := by
  rw [outsAt0_B m c t h0 h1]
  refine (congrFun (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt))) (ix2 p q)).trans ?_
  refine (Payload.accumulate_apply (wmblk m c t) (wsblk m c t) (weblk m c t) (xblk m c t) (outsAt0 m c (t.val - 1) (Nat.lt_of_le_of_lt (Nat.sub_le _ _) t.isLt)) p q).trans ?_
  rw [ih, run_terms, partialAt_pred m c t.val p.val q.val h0]
  unfold partialAt
  rw [if_neg h1, add_zero]
  exact (dotUpTo_run (X m c) (Wm m c) (Ws m c) (We m c) _ _ (t.val % 16)).symm

/-- A last point: the sum the point before left, extended by this point's run, plus the bias. -/
theorem last_point (c : Dev nD) (t : Fin cfg0.N) (h0 : ¬t.val % 16 = 0) (h1 : t.val % 16 = 15) (p : Fin 2048) (q : Fin 1024)
    (ih : ∀ h, outsAt0 m c (t.val - 1) h (ix2 p q) = partialAt m c (t.val - 1) p.val q.val) :
    outsAt0 m c t.val t.isLt (ix2 p q) = partialAt m c t.val p.val q.val := by
  rw [outsAt0_C m c t h0 h1]
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt))) (ix2 p q)).trans ?_
  refine (Payload.addBias_apply (bmblk m c t) (bsblk m c t) (beblk m c t) (k0_pay2 (wmblk m c t) (wsblk m c t) (weblk m c t) (xblk m c t) (outsAt0 m c (t.val - 1) (Nat.lt_of_le_of_lt (Nat.sub_le _ _) t.isLt))) p q).trans ?_
  refine congrArg₂ (· + ·) ?_ ?_
  · refine (Payload.accumulate_apply (wmblk m c t) (wsblk m c t) (weblk m c t) (xblk m c t) (outsAt0 m c (t.val - 1) (Nat.lt_of_le_of_lt (Nat.sub_le _ _) t.isLt)) p q).trans ?_
    rw [ih, run_terms, partialAt_pred m c t.val p.val q.val h0]
    exact (dotUpTo_run (X m c) (Wm m c) (Ws m c) (We m c) _ _ (t.val % 16)).symm
  · rw [bias_term, if_pos h1]

/-- THE ACCUMULATION: after every point the output block holds that point's partial sum. -/
theorem outsAt_eq (c : Dev nD) : ∀ (n : ℕ) (hn : n < cfg0.N) (p : Fin 2048) (q : Fin 1024),
    outsAt0 m c n hn (ix2 p q) = partialAt m c n p.val q.val := by
  intro n
  induction n with
  | zero =>
    intro hn p q
    exact first_point m c ⟨0, hn⟩ rfl (by show ¬0 % 16 = 15; decide) p q
  | succ n ih =>
    intro hn p q
    by_cases h0 : (n + 1) % 16 = 0
    · exact first_point m c ⟨n + 1, hn⟩ h0 (by dsimp only; omega) p q
    · by_cases h1 : (n + 1) % 16 = 15
      · exact last_point m c ⟨n + 1, hn⟩ h0 h1 p q (fun h => ih h p q)
      · exact middle_point m c ⟨n + 1, hn⟩ h0 h1 p q (fun h => ih h p q)

end Cert.KernelIdeal.Accum

end
-- ==== Proof.Final.lean ====
/-
  The result array after the kernel's run.

  Only the last point of each contraction run writes its output block back, and what it writes is the complete sum
  plus the bias: block `(t / 64, (t / 16) % 4)` of the function `out` of the argument arrays. The sixteen write-backs
  cover the result array (row `r` and column `o` lie in the block of row-tile `r / 2048` and column-tile `o / 1024`), so
  the array ends holding `out`.
-/
import proofs.«142792_j35313221108256_1_alg».proof.Proof.Accum

noncomputable section

open scoped BigOperators

namespace Cert.KernelIdeal.Final

open Cert.KernelIdeal Cert.KernelIdeal.Gen Idealize.ShloMosaic Idealize.ShloMosaic.TcCoe Idealize.SL.Sem Idealize.ShloMosaic.ValueIdx
open Cert.SampledLinear Cert.KernelIdeal.Blocks Cert.KernelIdeal.Accum
open Idealize.ShloMosaic.Pipeline (Dat)

variable (m : (ℓ : Loc nD τ sig) → Buf (Elt Ideal) ℓ)

/-- The function `out` of the argument arrays, as contents of the result array. -/
abbrev result (c : Dev nD) : Buf (Elt Ideal) ((c : Thread nD τ).loc main_v3) := out (X m c) (Wm m c) (Ws m c) (We m c) (Bm m c) (Bs m c) (Be m c)

/-- Entry `(p, q)` of the output block of point `t` is entry `(2048 · (t / 64) + p, 1024 · ((t / 16) % 4) + q)` of the array. -/
theorem emb_out (t : Fin cfg0.N) (p : Fin 2048) (q : Fin 1024) (r : Fin 8192) (o : Fin 4096)
    (hr : r.val = 2048 * (t.val / 64) + p.val) (ho : o.val = 1024 * ((t.val / 16) % 4) + q.val) :
    ((cfg0.win 7).blk t).view.emb (ix2 p q) = ix2 r o := by
  funext a
  apply Fin.ext
  match a with
  | ⟨0, _⟩ => show win0_7.index t 0 * 2048 + 1 * p.val = r.val; rw [(idx_out t).1, hr]; omega
  | ⟨1, _⟩ => show win0_7.index t 1 * 1024 + 1 * q.val = o.val; rw [(idx_out t).2, ho]; omega

/-- WHAT A LAST POINT WRITES BACK is its block of `out`. -/
theorem flushed_eq (c : Dev nD) (t : Fin cfg0.N) (hf : (cfg0.win 7).flush t = true) :
    (dats m 0 c).flushed 7 t = ((cfg0.win 7).blk t).view.read (Elt Ideal) (result m c) := by
  have h15 : t.val % 16 = 15 := (flush0_7 t).mp hf
  have ht : t.val < 256 := lt_of_lt_of_eq t.isLt N256
  show (cfg0.win 7).cut (grid0.coords t) ((dats m 0 c).after 7 t) = _
  rw [after0_7]
  funext y
  obtain ⟨p, q, rfl⟩ : ∃ (p : Fin 2048) (q : Fin 1024), y = ix2 p q := ⟨y 0, y 1, eq_ix2 y⟩
  have hp := p.isLt
  have hq := q.isLt
  have hr : 2048 * (t.val / 64) + p.val < 8192 := by omega
  have ho : 1024 * ((t.val / 16) % 4) + q.val < 4096 := by omega
  rw [View.read_apply, emb_out t p q ⟨_, hr⟩ ⟨_, ho⟩ rfl rfl]
  refine (outsAt_eq m c t.val t.isLt p q).trans ?_
  unfold partialAt
  rw [h15, if_pos rfl, show 256 * (15 + 1) = 4096 from rfl, dotUpTo_full _ _ _ _ hr ho, biasAt_eq _ _ _ ho]
  rfl

/-- Every entry of the result array lies in the block some last point writes back. -/
theorem covered (i : S8192x4096.Idx) :
    ∃ t : Fin cfg0.N, (cfg0.win 7).flush t = true ∧ i ∈ ((cfg0.win 7).blk t).view.set := by
  have h0 : (i 0).val < 8192 := (i 0).isLt
  have h1 : (i 1).val < 4096 := (i 1).isLt
  have hN : ((i 0).val / 2048 * 4 + (i 1).val / 1024) * 16 + 15 < cfg0.N := by rw [N256]; omega
  obtain ⟨t, ht⟩ : ∃ t : Fin cfg0.N, t.val = ((i 0).val / 2048 * 4 + (i 1).val / 1024) * 16 + 15 := ⟨⟨_, hN⟩, rfl⟩
  refine ⟨t, (flush0_7 t).mpr (by omega), ?_⟩
  show i ∈ ((View.whole main_v3).slice (win0_7.rect t)).set
  rw [View.set_slice_whole, Rect.mem_set_unit]
  intro a
  match a with
  | ⟨0, _⟩ =>
    show win0_7.index t (0 : Fin 2) * 2048 ≤ (i 0).val ∧ (i 0).val < win0_7.index t (0 : Fin 2) * 2048 + 2048
    rw [(idx_out t).1]
    omega
  | ⟨1, _⟩ =>
    show win0_7.index t (1 : Fin 2) * 1024 ≤ (i 1).val ∧ (i 1).val < win0_7.index t (1 : Fin 2) * 1024 + 1024
    rw [(idx_out t).2]
    omega

/-- THE RESULT ARRAY after the run is `out` of the argument arrays. -/
theorem final (c : Dev nD) : (dats m 0 c).arrAt 7 cfg0.N = result m c :=
  (dats m 0 c).arrAt_eq_of_cover 7 (result m c) (flushed_eq m c) covered

end Cert.KernelIdeal.Final

end
-- ==== Proof.KernelRun.lean ====
/-
  The kernel program's run, with both results named.

  The first result is the array the kernel call writes: `out` of the argument arrays. The second result is computed by
  the host operations after the call from the weight means and log-deviations and the bias means and log-deviations
  alone, arrays the call only reads, so it is the same expression `kl` of the arguments as they were launched:
  `-½ ∑ (1 + 2σ − μ² − exp(2σ))` over the weight entries plus the same over the bias entries.
-/
import proofs.«142792_j35313221108256_1_alg».proof.Proof.Final
import Idealize.ShloMosaic.Lib.StableHlo.Run

noncomputable section

namespace Cert.KernelIdeal.KernelRun

open Cert.KernelIdeal Cert.KernelIdeal.Gen Idealize.ShloMosaic Idealize.ShloMosaic.TcCoe Idealize.SL.Sem Idealize.ShloMosaic.ValueIdx
open Cert.SampledLinear Cert.KernelIdeal.Blocks Cert.KernelIdeal.Accum Cert.KernelIdeal.Final
open Idealize.ShloMosaic.Pipeline (Dat)

/-- The second result as an expression of the four arrays it depends on: the host operations after the call, composed. -/
def kl {F : FTy → Type} [FloatOps F] (w1 w2 : Vec F S4096x4096 .f32) (b3 b4 : Vec F S4096 .f32) : Vec F S_ .f32 :=
  addf
    (mulf (constant S_ .f32 0xBF000000#32)
      (Host.reduceAdd
        (subf
          (subf
            (addf (broadcastInDim S4096x4096 ![] bcast_S_S4096x4096 (constant S_ .f32 0x3F800000#32))
              (mulf (broadcastInDim S4096x4096 ![] bcast_S_S4096x4096 (constant S_ .f32 0x40000000#32)) w2))
            (mulf w1 w1))
          (Host.exp (mulf (broadcastInDim S4096x4096 ![] bcast_S_S4096x4096 (constant S_ .f32 0x40000000#32)) w2)))
        (constant S_ .f32 0x00000000#32) reducesTo_S4096x4096_S_d0_1 h_S_))
    (mulf (constant S_ .f32 0xBF000000#32)
      (Host.reduceAdd
        (subf
          (subf
            (addf (broadcastInDim S4096 ![] bcast_S_S4096 (constant S_ .f32 0x3F800000#32))
              (mulf (broadcastInDim S4096 ![] bcast_S_S4096 (constant S_ .f32 0x40000000#32)) b4))
            (mulf b3 b3))
          (Host.exp (mulf (broadcastInDim S4096 ![] bcast_S_S4096 (constant S_ .f32 0x40000000#32)) b4)))
        (constant S_ .f32 0x00000000#32) reducesTo_S4096_S_d0 h_S_))

variable (m : (ℓ : Loc nD τ sig) → Buf (Elt Ideal) ℓ) (ρ : Dev nD → PrngReg)

/-- After the call the weight means are as launched: the call only reads them. -/
theorem after_arg1 (c : Dev nD) :
    Pipeline.withArrays (cfgs 0).spec c (V0 m c) (fun w => (dats m 0 c).arrAt w (cfgs 0).N) (Proc.devRef .tc main_arg1) = m ((c : Thread nD τ).loc main_arg1) :=
  (Pipeline.withArrays_arr spec0 launch0.win.arr_inj c _ _ 1).trans
    (((dats m 0 c).arrAt_in 1 rfl _).trans ((A_eq m c 1).trans (V_main_arg1 m c)))

/-- So are the weight log-deviations. -/
theorem after_arg2 (c : Dev nD) :
    Pipeline.withArrays (cfgs 0).spec c (V0 m c) (fun w => (dats m 0 c).arrAt w (cfgs 0).N) (Proc.devRef .tc main_arg2) = m ((c : Thread nD τ).loc main_arg2) :=
  (Pipeline.withArrays_arr spec0 launch0.win.arr_inj c _ _ 2).trans
    (((dats m 0 c).arrAt_in 2 rfl _).trans ((A_eq m c 2).trans (V_main_arg2 m c)))

/-- The bias means are no array of the call: they are as launched. -/
theorem after_arg3 (c : Dev nD) :
    Pipeline.withArrays (cfgs 0).spec c (V0 m c) (fun w => (dats m 0 c).arrAt w (cfgs 0).N) (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

/-- So are the bias log-deviations. -/
theorem after_arg4 (c : Dev nD) :
    Pipeline.withArrays (cfgs 0).spec c (V0 m c) (fun w => (dats m 0 c).arrAt w (cfgs 0).N) (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

open Idealize.ShloMosaic.StableHlo in
set_option maxHeartbeats 2000000 in
set_option maxRecDepth 8192 in
/-- THE SECOND RESULT after the run is `kl` of the arguments. -/
theorem tail_eq (c : Dev nD) :
    Pipeline.afterTail₀ cfgs (dats m) 0 (V0 m) [hostOps1] c main_v28
      = kl (m ((c : Thread nD τ).loc main_arg1)) (m ((c : Thread nD τ).loc main_arg2))
          (m ((c : Thread nD τ).loc main_arg3)) (m ((c : Thread nD τ).loc main_arg4)) := by
  unfold Pipeline.afterTail₀
  simp only [List.flatten_cons, List.flatten_nil, List.append_nil]
  unfold hostOps1
  after_results_simp
  rw [after_arg1, after_arg2, after_arg3, after_arg4]
  rfl

/-- THE RUN: every weakly fair execution terminates with the first result at `out` of the arguments, the second at
    `kl` of them, and the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_v28) = kl (m ((c : Thread nD τ).loc main_arg1)) (m ((c : Thread nD τ).loc main_arg2))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final m c),
      ((h c).2 main_v28 (Pipeline.mem_restRefs_of main_v28 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c)⟩)
    (run_main m ρ)

end Cert.KernelIdeal.KernelRun

end
-- ==== Proof.Reference.lean ====
/-
  The reference computes `out`.

  The reference samples the whole weight matrix and the whole bias vector, contracts `x` with the weight over the second
  axis of both (an `M×K` by `N×K` product), and adds the bias broadcast down the rows. Read at entry `(r, o)` that is the sum
  over `i` of `x(r, i) · weight(o, i)` plus `bias(o)`: the function `out`, term for term, the host's exponential being the
  same function of an extended real as the kernel's.
-/
import proofs.«142792_j35313221108256_1_alg».proof.Defs
import proofs.«142792_j35313221108256_1_alg».proof.Proof.Gen.ReferenceIdeal.Run
import proofs.«142792_j35313221108256_1_alg».proof.Proof.Gen.ReferenceIdeal.Read
import proofs.«142792_j35313221108256_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SampledLinear

/-- The left operand is read at `(r, k)`, -/
theorem lidx_eq (r : Fin 8192) (o : Fin 4096) (k : Fin 4096) : lidx_main_v6 (ix2 r o) k = ix2 r k :=
  funext fun a => Fin.ext (by match a with | ⟨0, _⟩ => rfl | ⟨1, _⟩ => rfl)

/-- the right operand at `(o, k)`, -/
theorem ridx_eq (r : Fin 8192) (o : Fin 4096) (k : Fin 4096) : ridx_main_v6 (ix2 r o) k = ix2 o k :=
  funext fun a => Fin.ext (by match a with | ⟨0, _⟩ => rfl | ⟨1, _⟩ => rfl)

/-- and the bias at `o`. -/
theorem bidx_eq (r : Fin 8192) (o : Fin 4096) : idx_main_v7 (idx_main_v8 (ix2 r o)) = ix1 o :=
  funext fun a => Fin.ext (by match a with | ⟨0, _⟩ => rfl)

/-- THE REFERENCE'S FIRST RESULT is `out` of the arguments. -/
theorem result_eq (x0 : Mat 8192 4096) (x1 x2 : Mat 4096 4096) (x3 x4 : Row 4096) (x5 : Mat 4096 4096) (x6 : Row 4096) :
    val_main_v9 (F := Ideal) x0 x1 x2 x3 x4 x5 x6 = out x0 x1 x2 x5 x3 x4 x6 := by
  funext i
  obtain ⟨r, o, rfl⟩ : ∃ (r : Fin 8192) (o : Fin 4096), i = ix2 r o := ⟨i 0, i 1, eq_ix2 i⟩
  rw [val_main_v9_apply, val_main_v6_apply, val_main_v8_apply, val_main_v7_apply, val_main_v5_apply, val_main_v4_apply,
    val_main_v3_apply, bidx_eq]
  simp only [lidx_eq, ridx_eq, val_main_v2_apply, val_main_v1_apply, val_main_v0_apply, Ideal.addf_def, Ideal.mulf_def,
    Ideal.hostUnary_exp_def]
  rfl

end Cert.ReferenceIdeal.RefValue

end
-- ==== Proof.lean ====
/-
  A linear layer with a sampled weight and bias, and the divergence of the sampling distribution from the standard normal:
  the kernel program and the reference compute the same two results on the extended reals.

  First result. Entry `(r, o)` is `∑ i, x(r, i) · (μ(o, i) + exp σ(o, i) · ε(o, i)) + (μ_b(o) + exp σ_b(o) · ε_b(o))`. The
  reference forms the whole sampled weight and contracts once. The kernel tiles the result into 4 × 4 blocks and the
  contraction into sixteen runs of 256: each grid point samples its weight block, multiplies it with its `x` block and
  adds the product to the output block, which starts at zero at the first run and receives the bias after the last. After
  the run at position `k` the block holds the first `256 · (k + 1)` terms of each entry's sum, so after the last it holds
  the whole sum: regrouping a finite sum needs only commutativity and associativity of `+`, which hold on the extended
  reals whatever the entries are. The narrowing of the kernel's matrix operands to a shorter float format is the identity
  there.

  Second result. Both programs compute it on the host by the same operations from the same four arrays, which the
  kernel's call only reads.

  The two word-level and ideal kernel frames are the generated ones, the reference's frame is its generated run, and the
  ideal pass rewrote nothing.
-/
import proofs.«142792_j35313221108256_1_alg».proof.Defs
import proofs.«142792_j35313221108256_1_alg».proof.Proof.Gen.Kernel
import proofs.«142792_j35313221108256_1_alg».proof.Proof.Gen.Kernel.Skeleton
import proofs.«142792_j35313221108256_1_alg».proof.Proof.Gen.Kernel.Launch
import proofs.«142792_j35313221108256_1_alg».proof.Proof.Gen.Kernel.Points
import proofs.«142792_j35313221108256_1_alg».proof.Proof.Gen.Kernel.Frame
import proofs.«142792_j35313221108256_1_alg».proof.Proof.Gen.KernelIdeal
import proofs.«142792_j35313221108256_1_alg».proof.Proof.Gen.KernelIdeal.Skeleton
import proofs.«142792_j35313221108256_1_alg».proof.Proof.Gen.KernelIdeal.Launch
import proofs.«142792_j35313221108256_1_alg».proof.Proof.Gen.KernelIdeal.Points
import proofs.«142792_j35313221108256_1_alg».proof.Proof.Gen.KernelIdeal.Frame
import proofs.«142792_j35313221108256_1_alg».proof.Proof.Gen.ReferenceIdeal
import proofs.«142792_j35313221108256_1_alg».proof.Proof.Gen.Pre_finite_inputs
import proofs.«142792_j35313221108256_1_alg».proof.Proof.KernelRun
import proofs.«142792_j35313221108256_1_alg».proof.Proof.Reference
import Idealize.ShloMosaic.Adequacy
import Idealize.ShloMosaic.Init

noncomputable section

namespace Cert.Proof

open Idealize.ShloMosaic Idealize.SL.Sem

/-- The reference's second result is the same expression of the four arrays as the kernel program's. -/
theorem kl_eq (x1 x2 : Cert.SampledLinear.Mat 4096 4096) (x3 x4 : Cert.SampledLinear.Row 4096) :
    Cert.ReferenceIdeal.Read.val_main_v34 (F := Ideal) x1 x2 x3 x4 = Cert.KernelIdeal.KernelRun.kl (F := Ideal) x1 x2 x3 x4 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Run from memories that agree on the arguments, both programs end with `out` of the arguments in the first result and
    `kl` of them in the second. -/
theorem algebraic : Cert.algebraic_KernelIdeal_ReferenceIdeal := by
  intro m ρ m' ρ' _ hagree
  refine ⟨_, _, Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v9_eq, Cert.ReferenceIdeal.RefValue.result_eq, (hagree c).1, (hagree c).2.1,
      (hagree c).2.2.1, (hagree c).2.2.2.1, (hagree c).2.2.2.2.1, (hagree c).2.2.2.2.2.1, (hagree c).2.2.2.2.2.2]
  · rw [Cert.ReferenceIdeal.Read.val_main_v34_eq, kl_eq, (hagree c).2.1, (hagree c).2.2.1, (hagree c).2.2.2.1,
      (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
